-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.BodyBits.lean ====
/-
  The body of the pairwise-distance kernel at one tile, for every float instance.

  The pallas_call walks an 8 × 8 grid of tiles. At tile (i, j) the pipeline stages row block i of the
  feature matrix (1024 rows of 512 features) in its first window and row block j of THE SAME matrix in
  its second, and writes the 1024 × 1024 tile the body leaves back to block (i, j) of the result. The
  body reads both staged blocks whole, computes the tile, and overwrites the whole output buffer with it;
  it keeps nothing between tiles and uses no scratch, semaphore or transfer of its own.

  This module states what the body does at one tile (`sound_kernel`), the proof data of the pipeline
  (`dats`: both input windows read one array, so each holds half of its share) and the body obligation at
  every tile.
-/
import proofs.«168934_j4355096838959_1_alg».proof.Proof.Gen.Kernel.Launch
import proofs.«168934_j4355096838959_1_alg».proof.Proof.Gen.Kernel.Skeleton
import proofs.«168934_j4355096838959_1_alg».proof.Proof.Gen.Kernel.Points
import Idealize.ShloMosaic.Lib.Pipeline.FrameBody
import Idealize.ShloMosaic.Lib.Tactic

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents, since the program is the
    region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The staged blocks -/

/-- The block of window `w`'s array that tile `t` addresses, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's buffer holds row block i at every tile of row i, although it is fetched only at the
    row's first tile: between fetches the block index does not move and the body leaves the buffer as it was. -/
theorem rows_held {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second window's buffer holds row block j at tile (i, j); it is fetched at every tile. -/
theorem cols_held {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole of an input buffer, and the whole of the output buffer, as the rectangles the body names. -/
abbrev allIn : Rect S1024x512 := Rect.unit (s := S1024x512) ![0, 0] S1024x512.size inb_S1024x512_S1024x512_0_0
abbrev allOut : Rect S1024x1024 := Rect.unit (s := S1024x1024) ![0, 0] S1024x1024.size inb_S1024x1024_S1024x1024_0_0

/-- The tile the body stores, as a function of the two staged blocks: its one store's payload laid over the
    whole buffer. -/
def tile (a b : Vec F S1024x512 .f32) : Vec F S1024x1024 .f32 :=
  View.canon [⟨allOut, k0_pay1 (View.ld a allIn) (View.ld b allIn)⟩]

/-- The one store covers the buffer. -/
theorem store_covers (p : Vec F S1024x1024 .f32) (y : S1024x1024.Idx) :
    ∃ pc ∈ ([⟨allOut, p⟩] : List (View.Piece (Elt F) S1024x1024 .f32)), y ∈ pc.1.set :=
  View.cover_of_tiled [⟨allOut, p⟩] S1024x1024.size (by rfl) y

/-! ## The body's triple -/

set_option maxHeartbeats 1000000 in
/-- On whole staging memrefs, the inputs' reading `a` and `b` and the output's anything, the body runs to the
    end with the inputs' as they were and the output's at `tile a b`: two loads, a load of the output buffer
    whose value is dropped, and one store over the whole buffer. -/
theorem sound_kernel (c : Dev nD) (E : Set ℕ) (i : grid0.Coords)
    (arg2 : Memref sig .tc .vmem S1024x512 .f32) (harg2 : arg2.IsWhole)
    (arg3 : Memref sig .tc .vmem S1024x512 .f32) (harg3 : arg3.IsWhole)
    (arg4 : Memref sig .tc .vmem S1024x1024 .f32) (harg4 : arg4.IsWhole)
    (a b : Vec F S1024x512 .f32) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tile a b)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data -/

/-- On core `c`: the arrays as the region finds them; after the body at tile `t` each input buffer still at its
    block and the output buffer at `tile` of the two blocks; nothing carried between tiles beyond the (empty)
    scoped rest; nothing owed. The feature matrix is read by two windows, so each holds half of it: the left
    half of the full share for the row blocks, the right half for the column blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = tile (iblk m c 0 t) (iblk m c 1 t) := by dsimp only [dats]

theorem before_rows (c : Dev nD) (t : Fin cfg0.N) (d) : (dats m 0 c).before 0 t d = iblk m c 0 t :=
  rows_held m (dats m 0 c) (A_eq m c 0) (after_rows m c) t d
theorem before_cols (c : Dev nD) (t : Fin cfg0.N) (d) : (dats m 0 c).before 1 t d = iblk m c 1 t :=
  cols_held m (dats m 0 c) (A_eq m c 1) (after_cols m c) t d

/-! ## The body obligation at a tile -/

/-- What the body is handed at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The input buffers hold their blocks, so the body's triple applies; the invariant and the core's dues pass
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Dist

end
-- ==== Proof.LaunchBits.lean ====
/-
  The run of the pairwise-distance kernel's program, for every float instance.

  Both input windows of the pallas_call read one array, the feature matrix. The launch therefore deals the
  matrix's full share between them — the left half to the window of row blocks, the right half to the window
  of column blocks; a fetch only reads, so any positive share serves — and hands the result array to the output
  window whole (`arrays_dealt`). With that split stated, the launch is the library's theorem for a kernel
  with no semaphore of its own whose input windows may share arrays.

  What the run establishes (`run_main`): every weakly fair execution terminates without a fault, and every
  array ends at what the pipeline library computes from the proof data: the feature matrix unchanged
  (`frame`), the result its entry contents overwritten, tile by tile, with the tile the body leaves.
-/
import proofs.«168934_j4355096838959_1_alg».proof.Proof.BodyBits

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array, two readers -/

/-- The buffers behind the windows' arrays are two: the feature matrix and the result. -/
theorem arrRefs_eq : Finset.univ.image (Pipeline.arrRef spec0) = {main_arg0, main_v0} := by decide

/-- The two buffers, each whole at the full share at the entry contents, make the pipeline's arrays at entry:
    the feature matrix's full share splits into its halves, one for each window that reads it; the result
    goes to the output window whole. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, bigSep_insert (by decide), bigSep_singleton, bigSep_W0,
    (arr_whole0 0).set_eq_univ, (arr_whole0 2).set_eq_univ]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦{fullShare.left} V m c main_arg0)
        ∗ ((c.tc : Thread nD τ).loc main_arg0 ↦{fullShare.right} V m c main_arg0)
        ∗ ((c.tc : Thread nD τ).loc main_v0 ↦{fullShare} V m c main_v0))
  iintro ⟨HA, HO⟩
  ihave HA := (pointsTo_share (PosShare.mem_left_op_right fullShare)).1 $$ HA
  icases HA with ⟨HA₁, HA₂⟩
  isplitl [HA₁]
  · iexact HA₁
  isplitl [HA₂]
  · iexact HA₂
  iexact HO

/-! ## The run -/

/-- After the run every array of the pipeline holds what the library computes from the proof data. -/
def Ends (r : PUnit × MemSt nD τ sig (Elt F)) : Prop :=
  ∀ (c : Dev nD) (w : Fin cfg0.W), r.2.mem ((cfg0.win w).arr.view.loc (c.tc : Thread nD τ)) = (dats m 0 c).arrAt w cfg0.N

-- the launch theorem's implicit arguments are found by unifying its conclusion with this one, which takes
-- unfolding plain definitions in a metavariable's type
set_option backward.isDefEq.respectTransparency.types false in
/-- At the compiled mesh, for any float values, from any memory with zero counters: every weakly fair execution of
    the program terminates without a fault, and every final state has each array at the computed contents. The
    kernel has no semaphore and no scratch of its own and every unscoped buffer is a window's array, so nothing
    passes through the region's invariant and nothing bypasses the region. -/
theorem run_main : θ_run defs (onTc (τ := τ) (main (F := F))) (s₀ m ρ) (Ends m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_dealt m)
    (X := fun _ => iprop(emp)) (Y := fun _ => iprop(emp)) (Z := fun _ => iprop(emp))
    (hX := fun c => by rw [unscopedRest0_eq]; iintro -; isplitr <;> iempintro)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-! ## The arrays after the run -/

/-- The feature matrix is only read: it ends as launched. -/
theorem kept_features (r : PUnit × MemSt nD τ sig (Elt F)) (h : Ends m r) (c : Dev nD) :
    r.2.mem ((c.tc : Thread nD τ).loc main_arg0) = m ((c.tc : Thread nD τ).loc main_arg0) :=
  (h c 0).trans (((dats m 0 c).arrAt_in 0 rfl _).trans (A_eq m c 0))

/-- The result array ends at the entry contents overwritten by every tile's write-back. -/
theorem result_ends (r : PUnit × MemSt nD τ sig (Elt F)) (h : Ends m r) (c : Dev nD) :
    r.2.mem ((c.tc : Thread nD τ).loc main_v0) = (dats m 0 c).arrAt 2 cfg0.N :=
  h c 2

/-- The frame claim at any float instance: the program runs to the end, faults nowhere, and leaves the feature
    matrix as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_features m r h c) (run_main m ρ)

/-- The run with the result array named: what the value proof reads. -/
theorem run_named : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun r h c => ⟨result_ends m r h c, kept_features m r h c⟩) (run_main m ρ)

end Cert.Kernel.Dist

end
-- ==== Proof.BodyIdeal.lean ====
/-
  The body of the pairwise-distance kernel at one tile, for every float instance.

  The pallas_call walks an 8 × 8 grid of tiles. At tile (i, j) the pipeline stages row block i of the
  feature matrix (1024 rows of 512 features) in its first window and row block j of THE SAME matrix in
  its second, and writes the 1024 × 1024 tile the body leaves back to block (i, j) of the result. The
  body reads both staged blocks whole, computes the tile, and overwrites the whole output buffer with it;
  it keeps nothing between tiles and uses no scratch, semaphore or transfer of its own.

  This module states what the body does at one tile (`sound_kernel`), the proof data of the pipeline
  (`dats`: both input windows read one array, so each holds half of its share) and the body obligation at
  every tile.
-/
import proofs.«168934_j4355096838959_1_alg».proof.Proof.Gen.KernelIdeal.Launch
import proofs.«168934_j4355096838959_1_alg».proof.Proof.Gen.KernelIdeal.Skeleton
import proofs.«168934_j4355096838959_1_alg».proof.Proof.Gen.KernelIdeal.Points
import Idealize.ShloMosaic.Lib.Pipeline.FrameBody
import Idealize.ShloMosaic.Lib.Tactic

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: the launch contents, since the program is the
    region alone. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The staged blocks -/

/-- The block of window `w`'s array that tile `t` addresses, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first window's buffer holds row block i at every tile of row i, although it is fetched only at the
    row's first tile: between fetches the block index does not move and the body leaves the buffer as it was. -/
theorem rows_held {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second window's buffer holds row block j at tile (i, j); it is fetched at every tile. -/
theorem cols_held {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole of an input buffer, and the whole of the output buffer, as the rectangles the body names. -/
abbrev allIn : Rect S1024x512 := Rect.unit (s := S1024x512) ![0, 0] S1024x512.size inb_S1024x512_S1024x512_0_0
abbrev allOut : Rect S1024x1024 := Rect.unit (s := S1024x1024) ![0, 0] S1024x1024.size inb_S1024x1024_S1024x1024_0_0

/-- The tile the body stores, as a function of the two staged blocks: its one store's payload laid over the
    whole buffer. -/
def tile (a b : Vec F S1024x512 .f32) : Vec F S1024x1024 .f32 :=
  View.canon [⟨allOut, k0_pay1 (View.ld a allIn) (View.ld b allIn)⟩]

/-- The one store covers the buffer. -/
theorem store_covers (p : Vec F S1024x1024 .f32) (y : S1024x1024.Idx) :
    ∃ pc ∈ ([⟨allOut, p⟩] : List (View.Piece (Elt F) S1024x1024 .f32)), y ∈ pc.1.set :=
  View.cover_of_tiled [⟨allOut, p⟩] S1024x1024.size (by rfl) y

/-! ## The body's triple -/

set_option maxHeartbeats 1000000 in
/-- On whole staging memrefs, the inputs' reading `a` and `b` and the output's anything, the body runs to the
    end with the inputs' as they were and the output's at `tile a b`: two loads, a load of the output buffer
    whose value is dropped, and one store over the whole buffer. -/
theorem sound_kernel (c : Dev nD) (E : Set ℕ) (i : grid0.Coords)
    (arg2 : Memref sig .tc .vmem S1024x512 .f32) (harg2 : arg2.IsWhole)
    (arg3 : Memref sig .tc .vmem S1024x512 .f32) (harg3 : arg3.IsWhole)
    (arg4 : Memref sig .tc .vmem S1024x1024 .f32) (harg4 : arg4.IsWhole)
    (a b : Vec F S1024x512 .f32) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tile a b)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data -/

/-- On core `c`: the arrays as the region finds them; after the body at tile `t` each input buffer still at its
    block and the output buffer at `tile` of the two blocks; nothing carried between tiles beyond the (empty)
    scoped rest; nothing owed. The feature matrix is read by two windows, so each holds half of it: the left
    half of the full share for the row blocks, the right half for the column blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = tile (iblk m c 0 t) (iblk m c 1 t) := by dsimp only [dats]

theorem before_rows (c : Dev nD) (t : Fin cfg0.N) (d) : (dats m 0 c).before 0 t d = iblk m c 0 t :=
  rows_held m (dats m 0 c) (A_eq m c 0) (after_rows m c) t d
theorem before_cols (c : Dev nD) (t : Fin cfg0.N) (d) : (dats m 0 c).before 1 t d = iblk m c 1 t :=
  cols_held m (dats m 0 c) (A_eq m c 1) (after_cols m c) t d

/-! ## The body obligation at a tile -/

/-- What the body is handed at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The input buffers hold their blocks, so the body's triple applies; the invariant and the core's dues pass
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Dist

end
-- ==== Proof.LaunchIdeal.lean ====
/-
  The run of the pairwise-distance kernel's program, for every float instance.

  Both input windows of the pallas_call read one array, the feature matrix. The launch therefore deals the
  matrix's full share between them — the left half to the window of row blocks, the right half to the window
  of column blocks; a fetch only reads, so any positive share serves — and hands the result array to the output
  window whole (`arrays_dealt`). With that split stated, the launch is the library's theorem for a kernel
  with no semaphore of its own whose input windows may share arrays.

  What the run establishes (`run_main`): every weakly fair execution terminates without a fault, and every
  array ends at what the pipeline library computes from the proof data: the feature matrix unchanged
  (`frame`), the result its entry contents overwritten, tile by tile, with the tile the body leaves.
-/
import proofs.«168934_j4355096838959_1_alg».proof.Proof.BodyIdeal

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One array, two readers -/

/-- The buffers behind the windows' arrays are two: the feature matrix and the result. -/
theorem arrRefs_eq : Finset.univ.image (Pipeline.arrRef spec0) = {main_arg0, main_v0} := by decide

/-- The two buffers, each whole at the full share at the entry contents, make the pipeline's arrays at entry:
    the feature matrix's full share splits into its halves, one for each window that reads it; the result
    goes to the output window whole. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, bigSep_insert (by decide), bigSep_singleton, bigSep_W0,
    (arr_whole0 0).set_eq_univ, (arr_whole0 2).set_eq_univ]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦{fullShare.left} V m c main_arg0)
        ∗ ((c.tc : Thread nD τ).loc main_arg0 ↦{fullShare.right} V m c main_arg0)
        ∗ ((c.tc : Thread nD τ).loc main_v0 ↦{fullShare} V m c main_v0))
  iintro ⟨HA, HO⟩
  ihave HA := (pointsTo_share (PosShare.mem_left_op_right fullShare)).1 $$ HA
  icases HA with ⟨HA₁, HA₂⟩
  isplitl [HA₁]
  · iexact HA₁
  isplitl [HA₂]
  · iexact HA₂
  iexact HO

/-! ## The run -/

/-- After the run every array of the pipeline holds what the library computes from the proof data. -/
def Ends (r : PUnit × MemSt nD τ sig (Elt F)) : Prop :=
  ∀ (c : Dev nD) (w : Fin cfg0.W), r.2.mem ((cfg0.win w).arr.view.loc (c.tc : Thread nD τ)) = (dats m 0 c).arrAt w cfg0.N

-- the launch theorem's implicit arguments are found by unifying its conclusion with this one, which takes
-- unfolding plain definitions in a metavariable's type
set_option backward.isDefEq.respectTransparency.types false in
/-- At the compiled mesh, for any float values, from any memory with zero counters: every weakly fair execution of
    the program terminates without a fault, and every final state has each array at the computed contents. The
    kernel has no semaphore and no scratch of its own and every unscoped buffer is a window's array, so nothing
    passes through the region's invariant and nothing bypasses the region. -/
theorem run_main : θ_run defs (onTc (τ := τ) (main (F := F))) (s₀ m ρ) (Ends m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_dealt m)
    (X := fun _ => iprop(emp)) (Y := fun _ => iprop(emp)) (Z := fun _ => iprop(emp))
    (hX := fun c => by rw [unscopedRest0_eq]; iintro -; isplitr <;> iempintro)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-! ## The arrays after the run -/

/-- The feature matrix is only read: it ends as launched. -/
theorem kept_features (r : PUnit × MemSt nD τ sig (Elt F)) (h : Ends m r) (c : Dev nD) :
    r.2.mem ((c.tc : Thread nD τ).loc main_arg0) = m ((c.tc : Thread nD τ).loc main_arg0) :=
  (h c 0).trans (((dats m 0 c).arrAt_in 0 rfl _).trans (A_eq m c 0))

/-- The result array ends at the entry contents overwritten by every tile's write-back. -/
theorem result_ends (r : PUnit × MemSt nD τ sig (Elt F)) (h : Ends m r) (c : Dev nD) :
    r.2.mem ((c.tc : Thread nD τ).loc main_v0) = (dats m 0 c).arrAt 2 cfg0.N :=
  h c 2

/-- The frame claim at any float instance: the program runs to the end, faults nowhere, and leaves the feature
    matrix as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_features m r h c) (run_main m ρ)

/-- The run with the result array named: what the value proof reads. -/
theorem run_named : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun r h c => ⟨result_ends m r h c, kept_features m r h c⟩) (run_main m ρ)

end Cert.KernelIdeal.Dist

end
-- ==== Proof.Spec.lean ====
/-
  Minus the Euclidean distance between every two rows of a matrix, as both programs compute it.

  For a matrix x of 8192 rows of 512 extended reals, write n r = Σₖ x[r,k]² for the squared norm of row r and
  g r s = Σₖ x[r,k]·x[s,k] for the inner product of rows r and s. Both programs compute, at (r, s),

      −√( max( (n r + n s) − 2·g r s , 0 ) )

  with the additions, the product by 2, the subtraction, the maximum with 0, the square root and the final
  negation in this very order; they differ only in how the sums are tiled and in spelling (a negation written
  0 − y, a sum started from an accumulator 0). So no law of the extended reals beyond 0 + y = y and
  0 − y = −y is needed, and the inputs' finiteness plays no part.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- Minus the distance from the two squared norms `n₁`, `n₂` and the inner product `g`:
    −√max((n₁ + n₂) − 2·g, 0), the constant 2 as the float word both programs print. -/
def ofParts (n₁ n₂ g : EReal) : EReal :=
  -(Ideal.sqrt (max ((n₁ + n₂) - Ideal.ofBits .f32 0x40000000#32 * g) 0))

/-- The same value as the kernel spells it: the final negation written `0 − y`, each zero the float word. -/
theorem ofParts_eq (n₁ n₂ g : EReal) :
    Ideal.ofBits .f32 0x00000000#32
        - Ideal.sqrt (max ((n₁ + n₂) - Ideal.ofBits .f32 0x40000000#32 * g) (Ideal.ofBits .f32 0x00000000#32))
      = ofParts n₁ n₂ g := by
  rw [Ideal.ofBits_zero_f32, zero_sub]
  rfl

/-- The squared norm of row `r` of a matrix of `n` rows of 512 entries. -/
def sqNorm {n : Nat} (x : (⟨2, ![n, 512]⟩ : Shape).Idx → EReal) (r : Fin n) : EReal :=
  ∑ k : Fin 512, x (ix2 r k) * x (ix2 r k)

/-- The inner product of row `r` of one such matrix with row `s` of another. -/
def inner {n n' : Nat} (x : (⟨2, ![n, 512]⟩ : Shape).Idx → EReal) (y : (⟨2, ![n', 512]⟩ : Shape).Idx → EReal)
    (r : Fin n) (s : Fin n') : EReal :=
  ∑ k : Fin 512, x (ix2 r k) * y (ix2 s k)

/-- Minus the distance between rows `r` and `s` of the feature matrix. -/
def negDist (x : (⟨2, ![8192, 512]⟩ : Shape).Idx → EReal) (r s : Fin 8192) : EReal :=
  ofParts (sqNorm x r) (sqNorm x s) (inner x x r s)

/-- The whole result: entry (r, s) is minus the distance between rows r and s. -/
def all (x : (⟨2, ![8192, 512]⟩ : Shape).Idx → EReal) : (⟨2, ![8192, 8192]⟩ : Shape).Idx → EReal :=
  fun i => negDist x (i 0) (i 1)

theorem all_ix2 (x : (⟨2, ![8192, 512]⟩ : Shape).Idx → EReal) (r s : Fin 8192) : all x (ix2 r s) = negDist x r s := rfl

/-- Rows `1024·b + p` of the feature matrix, for `p < 1024`: the row block `b` as a matrix of its own. -/
def rowBlock (x : (⟨2, ![8192, 512]⟩ : Shape).Idx → EReal) (b : Fin 8) : (⟨2, ![1024, 512]⟩ : Shape).Idx → EReal :=
  fun j => x (ix2 ⟨b.val * 1024 + (j 0).val, by have := (j 0).isLt; have := b.isLt; simp only [Matrix.cons_val_zero] at *; omega⟩ ⟨(j 1).val, (j 1).isLt⟩)

/-- Row `p` of block `b` is row `1024·b + p` of the matrix, so its squared norm is that row's, -/
theorem sqNorm_rowBlock (x : (⟨2, ![8192, 512]⟩ : Shape).Idx → EReal) (b : Fin 8) (p : Fin 1024) (r : Fin 8192)
    (hr : r.val = b.val * 1024 + p.val) : sqNorm (rowBlock x b) p = sqNorm x r := by
  unfold sqNorm
  refine Finset.sum_congr rfl fun k _ => ?_
  have e : rowBlock x b (ix2 p k) = x (ix2 r k) := by
    unfold rowBlock
    refine congrArg x (funext fun a => Fin.ext ?_)
    match a with
    | ⟨0, _⟩ => exact hr.symm
    | ⟨1, _⟩ => rfl
  rw [e]

/-- and its inner product with row `q` of block `b'` is the inner product of the two rows of the matrix. -/
theorem inner_rowBlock (x : (⟨2, ![8192, 512]⟩ : Shape).Idx → EReal) (b b' : Fin 8) (p q : Fin 1024) (r s : Fin 8192)
    (hr : r.val = b.val * 1024 + p.val) (hs : s.val = b'.val * 1024 + q.val) :
    inner (rowBlock x b) (rowBlock x b') p q = inner x x r s := by
  unfold inner
  refine Finset.sum_congr rfl fun k _ => ?_
  have e : rowBlock x b (ix2 p k) = x (ix2 r k) := by
    unfold rowBlock
    refine congrArg x (funext fun a => Fin.ext ?_)
    match a with
    | ⟨0, _⟩ => exact hr.symm
    | ⟨1, _⟩ => rfl
  have e' : rowBlock x b' (ix2 q k) = x (ix2 s k) := by
    unfold rowBlock
    refine congrArg x (funext fun a => Fin.ext ?_)
    match a with
    | ⟨0, _⟩ => exact hs.symm
    | ⟨1, _⟩ => rfl
  rw [e, e']

end Cert.PairDist

end
-- ==== Proof.LibKeepdims.lean ====
/-
  A column vector kept beside a matrix: the three layout operations by which a kernel turns a vector of row
  sums (`jnp.sum(…, keepdims=True)`) into a matrix, each read at an index.

  * an `[a]` vector cast to the column `[a, 1]` reads, at `(i, 0)`, the vector at `i`;
  * the column `[a, 1]` transposed to the row `[1, a]` reads, at `(0, i)`, the column at `(i, 0)`;
  * the column `[a, 1]` broadcast to `[a, b]` reads, at `(p, c)`, the column at `(p, 0)`: every entry of row `p`
    is the vector's entry `p`.

  (The row forms — a vector cast to `[1, a]` and a row broadcast down the rows — are the library's
  `shapeCast_a_1a_apply` and `broadcastTo_1b_ab_apply`.) Generic in the extents, over any element type.
-/
import Idealize.ShloMosaic.Lib.Pipeline.Value
import Idealize.ShloMosaic.Lib.ValueIdx

namespace Cert.Keepdims

open Idealize.ShloMosaic Idealize.ShloMosaic.ValueIdx

variable {α : Type}

/-- An `[a]` vector cast to `[a, 1]` reads, at `(i, u)`, the vector at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column transposed to `[1, a]` reads, at `(u, i)`, the column at `(i, u)`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply [1, 0] x h (ix2 u i) (ix2 i u) (fun b => match b with
    | ⟨0, _⟩ => rfl
    | ⟨1, _⟩ => rfl)

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelValue.lean ====
/-
  What the kernel's result array holds after the run: the specification, entry by entry.

  At tile (i, j) the body is handed row blocks i and j of the feature matrix, a and b. It sums the squares of
  each row of a and of b over the 512 lanes, lays a's sums down the columns and b's along the rows (a column
  vector broadcast, and its transpose broadcast), multiplies a by b transposed on the matrix unit from a zero
  accumulator, and stores 0 − √max((‖a_p‖² + ‖b_q‖²) − 2·⟨a_p, b_q⟩, 0) at (p, q). Row p of block i is row
  1024·i + p of the matrix, so the tile is the block (i, j) of `PairDist.all`; the 64 tiles cover the result.
  The only arithmetic used is 0 + y = y (the matrix unit's zero accumulator) and 0 − y = −y.
-/
import proofs.«168934_j4355096838959_1_alg».proof.Proof.LaunchIdeal
import proofs.«168934_j4355096838959_1_alg».proof.Proof.Spec
import proofs.«168934_j4355096838959_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dist

open Cert.KernelIdeal Cert.KernelIdeal.Gen
open Idealize.ShloMosaic Idealize.ShloMosaic.TcCoe Idealize.SL.Sem Idealize.ShloMosaic.ValueIdx
open Idealize.ShloMosaic.Pipeline (Dat)
open Cert.PairDist (ofParts sqNorm inner negDist rowBlock)

theorem hz : (![0, 0] : Fin 2 → Nat) = fun _ => 0 := funext fun a => by fin_cases a <;> rfl

/-! ## The body's arithmetic at an index -/

/-- The sum over the 512 lanes of row `p`. -/
theorem laneSum_apply (src : FVec Ideal S1024x512 .f32) (p : Fin 1024) :
    multiReduction .add [1] S1024 src 0x00000000#32 reduces_S1024x512_S1024 (.inl rfl) rfl (ix1 p)
      = ∑ k : Fin 512, src (ix2 p k) := by
  refine (Ideal.multiReduction_add_single src 0x00000000#32 reduces_S1024x512_S1024 (.inl rfl) rfl (ix1 p)).trans ?_
  refine Finset.sum_congr rfl fun k _ => congrArg src (funext fun a => Fin.ext ?_)
  match a with
  | ⟨0, _⟩ => rfl
  | ⟨1, _⟩ => rfl

/-- The row sums of squares, cast to a column and broadcast: every entry of row `p` is row `p`'s squared norm. -/
theorem norms_down (a : FVec Ideal S1024x512 .f32) (p q : Fin 1024) :
    broadcastTo S1024x1024 (shapeCast S1024x1 (multiReduction .add [1] S1024 (mulf a a) 0x00000000#32 reduces_S1024x512_S1024 (.inl rfl) rfl)
        shapeCasts_S1024_S1024x1) broadcasts_S1024x1_S1024x1024 (ix2 p q) = sqNorm a p := by
  rw [Cert.Keepdims.broadcastTo_a1_ab_apply, Cert.Keepdims.shapeCast_a_a1_apply, laneSum_apply]
  rfl

/-- The same column transposed to a row and broadcast: every entry of column `q` is row `q`'s squared norm. -/
theorem norms_across (b : FVec Ideal S1024x512 .f32) (p q : Fin 1024) :
    broadcastTo S1024x1024 (transpose S1x1024 [1, 0] (shapeCast S1024x1 (multiReduction .add [1] S1024 (mulf b b) 0x00000000#32 reduces_S1024x512_S1024 (.inl rfl) rfl)
        shapeCasts_S1024_S1024x1) transposes_S1024x1_p1_0_S1x1024) broadcasts_S1x1024_S1024x1024 (ix2 p q) = sqNorm b q := by
  rw [broadcastTo_1b_ab_apply, Cert.Keepdims.transpose_a1_1a_apply, Cert.Keepdims.shapeCast_a_a1_apply, laneSum_apply]
  rfl

/-- The dot's operand indices, axis by axis: the left operand is read at (row of the result, k), the right at
    (column of the result, k). -/
theorem lhs_ax0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_ax1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_ax0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_ax1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The matrix unit's product from a zero accumulator at (p, q): the inner product of row `p` of the left
    operand with row `q` of the right. -/
theorem gram_apply (l r : FVec Ideal S1024x512 .bf16) (p q : Fin 1024) :
    matmul dot_S1024x512_S1024x512_S1024x1024_1_1_0_0_n_n none l r (constant S1024x1024 .f32 0x00000000#32) (ix2 p q)
      = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_ax0 _ _
    | ⟨1, _⟩ => exact (lhs_ax1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_ax0 _ _
    | ⟨1, _⟩ => exact (rhs_ax1 _ _).trans hk)
  rw [el, er]

/-- The body's payload at (p, q), from the two staged blocks. -/
theorem pay_apply (a b : FVec Ideal S1024x512 .f32) (p q : Fin 1024) :
    k0_pay1 (F := Ideal) a b (ix2 p q) = ofParts (sqNorm a p) (sqNorm b q) (inner a b p q) := by
  have h1 := norms_down a p q
  have h2 := norms_across b p q
  have h3 : matmul dot_S1024x512_S1024x512_S1024x1024_1_1_0_0_n_n none (truncf .bf16 a bitsLt_bf16_f32) (truncf .bf16 b bitsLt_bf16_f32)
      (constant S1024x1024 .f32 0x00000000#32) (ix2 p q) = inner a b p q :=
    gram_apply (truncf .bf16 a bitsLt_bf16_f32) (truncf .bf16 b bitsLt_bf16_f32) p q
  unfold k0_pay1
  exact (congrArg (fun z : EReal => Ideal.ofBits .f32 0x00000000#32 - Ideal.sqrt (max z (Ideal.ofBits .f32 0x00000000#32)))
    (congrArg₂ (· - ·) (congrArg₂ (· + ·) h1 h2) (congrArg (Ideal.ofBits .f32 0x40000000#32 * ·) h3))).trans
      (Cert.PairDist.ofParts_eq _ _ _)

/-! ## A tile is a block of the specification -/

/-- The tile the body stores at (p, q), from the two staged blocks. -/
theorem tile_apply (a b : FVec Ideal S1024x512 .f32) (p q : Fin 1024) :
    tile (F := Ideal) a b (ix2 p q) = ofParts (sqNorm a p) (sqNorm b q) (inner a b p q) := by
  unfold tile
  rw [View.canon_unit_zero hz]
  simp only [View.ld_unit_zero (S := S1024x512) hz]
  exact pay_apply a b p q

/-- With row blocks `bi` and `bj` of the matrix staged, the tile at (p, q) is minus the distance between rows
    `1024·bi + p` and `1024·bj + q`. -/
theorem tile_block (x : FVec Ideal S8192x512 .f32) (bi bj : Fin 8) (p q : Fin 1024) (r s : Fin 8192)
    (hr : r.val = bi.val * 1024 + p.val) (hs : s.val = bj.val * 1024 + q.val) :
    tile (F := Ideal) (rowBlock x bi) (rowBlock x bj) (ix2 p q) = negDist x r s := by
  rw [tile_apply]
  unfold Cert.PairDist.negDist
  rw [Cert.PairDist.sqNorm_rowBlock x bi p r hr, Cert.PairDist.sqNorm_rowBlock x bj q s hs,
    Cert.PairDist.inner_rowBlock x bi bj p q r s hr hs]

/-! ## The tiles over the grid -/

variable (m : (ℓ : Loc nD τ sig) → Buf (Elt Ideal) ℓ) (ρ : Dev nD → PrngReg)

/-- The printed index maps, decided over the 64 tiles: the first window's block row is the output's block row,
    the second's is the output's block COLUMN, neither moves along the features, and both output block indices
    stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) < 8 ∧ win0_2.index t (1 : Fin 2) < 8 :=
  (by decide +kernel : ∀ t : Fin grid0.N, _)

/-- Every one of the 8 × 8 output blocks is some tile's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The first window's block at tile `t` is the row block of the matrix with the output's block row. -/
theorem rows_block (c : Dev nD) (t : Fin cfg0.N) (bi : Fin 8) (hbi : bi.val = win0_2.index t (0 : Fin 2)) :
    (iblk m c 0 t : Vec Ideal S1024x512 .f32) = rowBlock (V m c main_arg0 : S8192x512.Idx → Elt Ideal .f32) bi := by
  obtain ⟨e0, e1, -, -, -, -⟩ := idx_facts t
  funext y
  unfold iblk rowBlock
  rw [View.read_apply]
  show V m c main_arg0 _ = V m c main_arg0 _
  congr 1
  funext a
  apply Fin.ext
  match a with
  | ⟨0, _⟩ => show win0_0.index t (0 : Fin 2) * 1024 + 1 * (y 0).val = bi.val * 1024 + (y 0).val; rw [e0, hbi]; omega
  | ⟨1, _⟩ => show win0_0.index t (1 : Fin 2) * 512 + 1 * (y 1).val = (y 1).val; rw [e1]; omega

/-- The second window's block at tile `t` is the row block of the matrix with the output's block COLUMN. -/
theorem cols_block (c : Dev nD) (t : Fin cfg0.N) (bj : Fin 8) (hbj : bj.val = win0_2.index t (1 : Fin 2)) :
    (iblk m c 1 t : Vec Ideal S1024x512 .f32) = rowBlock (V m c main_arg0 : S8192x512.Idx → Elt Ideal .f32) bj := by
  obtain ⟨-, -, e2, e3, -, -⟩ := idx_facts t
  funext y
  unfold iblk rowBlock
  rw [View.read_apply]
  show V m c main_arg0 _ = V m c main_arg0 _
  congr 1
  funext a
  apply Fin.ext
  match a with
  | ⟨0, _⟩ => show win0_1.index t (0 : Fin 2) * 1024 + 1 * (y 0).val = bj.val * 1024 + (y 0).val; rw [e2, hbj]; omega
  | ⟨1, _⟩ => show win0_1.index t (1 : Fin 2) * 512 + 1 * (y 1).val = (y 1).val; rw [e3]; omega

/-- What tile `t` writes back is block `t` of the specification of the matrix as the region finds it. -/
theorem flushed_eq (c : Dev nD) (t : Fin cfg0.N) :
    (dats m 0 c).flushed 2 t
      = ((cfg0.win 2).blk t).view.read (Elt Ideal) (Cert.PairDist.all (V m c main_arg0 : S8192x512.Idx → Elt Ideal .f32)) := by
  show (cfg0.win 2).cut (grid0.coords t) ((dats m 0 c).after 2 t) = _
  rw [after_out]
  obtain ⟨-, -, -, -, h0, h1⟩ := idx_facts t
  rw [rows_block m c t ⟨win0_2.index t (0 : Fin 2), h0⟩ rfl, cols_block m c t ⟨win0_2.index t (1 : Fin 2), h1⟩ rfl]
  funext y
  refine (congrArg (tile (F := Ideal) (rowBlock _ ⟨win0_2.index t (0 : Fin 2), h0⟩) (rowBlock _ ⟨win0_2.index t (1 : Fin 2), h1⟩))
    (eq_ix2 y)).trans ?_
  refine (tile_block (V m c main_arg0 : S8192x512.Idx → Elt Ideal .f32) ⟨win0_2.index t (0 : Fin 2), h0⟩ ⟨win0_2.index t (1 : Fin 2), h1⟩
    (y 0) (y 1) ((((cfg0.win 2).blk t).view.emb y) 0) ((((cfg0.win 2).blk t).view.emb y) 1) ?_ ?_).trans ?_
  · show win0_2.index t (0 : Fin 2) * 1024 + 1 * (y 0).val = win0_2.index t (0 : Fin 2) * 1024 + (y 0).val
    omega
  · show win0_2.index t (1 : Fin 2) * 1024 + 1 * (y 1).val = win0_2.index t (1 : Fin 2) * 1024 + (y 1).val
    omega
  · rfl

/-- An index of the result is in tile `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result is in some tile's block: the tile of block row `r / 1024` and block column
    `s / 1024`; every tile writes back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The result array after the run is the specification of the feature matrix. -/
theorem final (c : Dev nD) :
    (dats m 0 c).arrAt 2 cfg0.N = Cert.PairDist.all (V m c main_arg0 : S8192x512.Idx → Elt Ideal .f32) :=
  (dats m 0 c).arrAt_eq_of_cover 2 (Cert.PairDist.all (V m c main_arg0 : S8192x512.Idx → Elt Ideal .f32))
    (fun t _ => flushed_eq m c t) covered

/-- The run, read: the result at the specification of the launched feature matrix, the matrix unchanged. -/
theorem run : θ_run defs (onTc (τ := τ) (main (F := Ideal))) ⟨m, fun _ => 0, ρ⟩ fun r => ∀ c : Dev nD,
      r.2.mem ((c.tc : Thread nD τ).loc main_v0)
        = Cert.PairDist.all (m ((c.tc : Thread nD τ).loc main_arg0) : S8192x512.Idx → Elt Ideal .f32)
      ∧ r.2.mem ((c.tc : Thread nD τ).loc main_arg0) = m ((c.tc : Thread nD τ).loc main_arg0) :=
  (θ_run defs _ _).mono (fun r h c => ⟨(h c).1.trans (final m c), (h c).2⟩) (run_named m ρ)

end Cert.KernelIdeal.Dist

end
-- ==== Proof.RefValue.lean ====
/-
  The reference's result is the specification: entry (r, s) is minus the distance between rows r and s.

  The reference squares the matrix, sums each row from the initial value 0 (the squared norms), multiplies the
  matrix by its transpose (entry (r, s) is the inner product of rows r and s), lays the norms along the rows and
  along the columns, and finishes with (n r + n s) − 2·g, the maximum with 0, the square root and the negation.
  Read at an index, stage by stage, that is `PairDist.negDist`; the only arithmetic used is 0 + y = y for the
  sum's initial value.
-/
import proofs.«168934_j4355096838959_1_alg».proof.Defs
import proofs.«168934_j4355096838959_1_alg».proof.Proof.Gen.ReferenceIdeal.Run
import proofs.«168934_j4355096838959_1_alg».proof.Proof.Gen.ReferenceIdeal.Read
import proofs.«168934_j4355096838959_1_alg».proof.Proof.Spec

noncomputable section

namespace Cert.ReferenceIdeal.Dist

open Cert.ReferenceIdeal Cert.ReferenceIdeal.Gen Cert.ReferenceIdeal.Read
open Idealize.ShloMosaic Idealize.ShloMosaic.TcCoe Idealize.SL.Sem Idealize.ShloMosaic.ValueIdx

/-- The row-sum stage at row `r` is the row's squared norm: the sum starts from the float zero. -/
theorem norms_apply (x : FVec Ideal S8192x512 .f32) (r : Fin 8192) :
    val_main_v1 (F := Ideal) x (ix1 r) = Cert.PairDist.sqNorm x r := by
  rw [val_main_v1_apply, val_main_cst_apply]
  show Ideal.ofBits .f32 0x00000000#32 + _ = _
  rw [Ideal.ofBits_zero_f32, zero_add]
  unfold Cert.PairDist.sqNorm
  refine Finset.sum_congr rfl fun k _ => ?_
  rw [val_main_v0_apply]
  have e : idx_main_v1 (ix1 r) k = ix2 r k := funext fun a => Fin.ext (by
    match a with
    | ⟨0, _⟩ => rfl
    | ⟨1, _⟩ => rfl)
  rw [e]
  rfl

/-- The matrix times its transpose at (r, s) is the inner product of rows r and s. -/
theorem gram_apply (x : FVec Ideal S8192x512 .f32) (r s : Fin 8192) :
    val_main_v3 (F := Ideal) x (ix2 r s) = Cert.PairDist.inner x x r s := by
  rw [val_main_v3_apply]
  unfold Cert.PairDist.inner
  refine Finset.sum_congr rfl fun k _ => ?_
  rw [val_main_v2_apply]
  have el : lidx_main_v3 (ix2 r s) k = ix2 r k := funext fun a => Fin.ext (by
    match a with
    | ⟨0, _⟩ => rfl
    | ⟨1, _⟩ => rfl)
  have er : idx_main_v2 (ridx_main_v3 (ix2 r s) k) = ix2 s k := funext fun a => Fin.ext (by
    match a with
    | ⟨0, _⟩ => rfl
    | ⟨1, _⟩ => rfl)
  rw [el, er]

/-- The reference's result, as a function of the feature matrix, is the specification. -/
theorem result_eq (x : FVec Ideal S8192x512 .f32) : val_main_v15 (F := Ideal) x = Cert.PairDist.all x := by
  funext i
  obtain ⟨r, s, rfl⟩ : ∃ (r s : Fin 8192), i = ix2 r s := ⟨i 0, i 1, eq_ix2 i⟩
  rw [Cert.PairDist.all_ix2, val_main_v15_apply, val_main_v14_apply, val_main_v13_apply, val_main_v12_apply, val_main_cst_1_apply,
    val_main_v11_apply, val_main_v10_apply, val_main_v9_apply, val_main_cst_0_apply, val_main_v8_apply, val_main_v6_apply,
    val_main_v4_apply, val_main_v7_apply, val_main_v5_apply]
  have e1 : idx_main_v4 (idx_main_v6 (ix2 r s)) = ix1 r := funext fun a => Fin.ext (by
    match a with
    | ⟨0, _⟩ => rfl)
  have e2 : idx_main_v5 (idx_main_v7 (ix2 r s)) = ix1 s := funext fun a => Fin.ext (by
    match a with
    | ⟨0, _⟩ => rfl)
  rw [e1, e2, norms_apply, norms_apply, gram_apply]
  show -(Ideal.sqrt (max ((_ + _) - Ideal.ofBits .f32 0x40000000#32 * _) (Ideal.ofBits .f32 0x00000000#32))) = _
  rw [Ideal.ofBits_zero_f32]
  rfl

end Cert.ReferenceIdeal.Dist

end
-- ==== Proof.lean ====
/-
  The certificate of a pairwise-distance kernel against its jnp reference: equal results over the extended reals.

  Both programs take a matrix of 8192 rows of 512 floats and return the 8192 × 8192 matrix whose entry (r, s) is
  minus the Euclidean distance between rows r and s, computed by the Gram trick
  −√max(‖x_r‖² + ‖x_s‖² − 2·⟨x_r, x_s⟩, 0). The kernel does it tile by tile on an 8 × 8 grid, staging two row
  blocks of the SAME matrix per tile and multiplying them on the matrix unit after a change of format that is the
  identity on the extended reals; the reference does it with whole-array operations.

  * The three frames: the kernel's two programs run to the end and leave the matrix unchanged (the run of the
    pallas_call, its one input array shared between two windows at half shares: Proof/BodyIdeal.lean,
    Proof/LaunchIdeal.lean and their word-level copies); the reference's frame is its run with the result dropped.
  * `preserves`: the idealization rewrote nothing, so there is nothing to state.
  * `algebraic`: after the kernel's run the result array is the specification `PairDist.all` of the matrix
    (Proof/KernelValue.lean: each tile is a block of it and the tiles cover the array); the reference's result
    term is the same function (Proof/RefValue.lean). The two agree operation for operation; only 0 + y = y and
    0 − y = −y are used, so the precondition that the inputs are finite is not needed.
-/
import proofs.«168934_j4355096838959_1_alg».proof.Defs
import proofs.«168934_j4355096838959_1_alg».proof.Proof.Gen.Kernel
import proofs.«168934_j4355096838959_1_alg».proof.Proof.Gen.KernelIdeal
import proofs.«168934_j4355096838959_1_alg».proof.Proof.Gen.ReferenceIdeal
import proofs.«168934_j4355096838959_1_alg».proof.Proof.Gen.Pre_finite_inputs
import proofs.«168934_j4355096838959_1_alg».proof.Proof.LaunchBits
import proofs.«168934_j4355096838959_1_alg».proof.Proof.KernelValue
import proofs.«168934_j4355096838959_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves the feature matrix as it was. -/
theorem frame_kernel : Cert.frame_Kernel := fun m ρ _ => Cert.Kernel.Dist.frame m ρ

/-- So does the idealized kernel. -/
theorem frame_ideal : Cert.frame_KernelIdeal := fun m ρ _ => Cert.KernelIdeal.Dist.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the feature matrix, the idealized kernel ends with its result array at the
    specification of the matrix, and the reference with its result at a term that is the same function. -/
theorem algebraic : Cert.algebraic_KernelIdeal_ReferenceIdeal := by
  intro m ρ m' ρ' _ hagree
  refine ⟨fun c => Cert.PairDist.all (m ((c.tc : Thread Cert.KernelIdeal.nD Cert.KernelIdeal.τ).loc Cert.KernelIdeal.main_arg0)),
    Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Dist.result_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
